-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x18x9488 : Shape := ⟨3, ![256, 18, 9488]⟩
abbrev S256x17 : Shape := ⟨2, ![256, 17]⟩
abbrev S_ : Shape := ⟨0, ![]⟩

class Facts : Prop where
  bcast_S_S256x18x9488 : S_.BroadcastsInDim S256x18x9488 (![] : Fin 0 → Fin S256x18x9488.rank)
  reducesTo_S256x18x9488_S_d0_1_2 : S256x18x9488.ReducesTo [0, 1, 2] S_
  h_S_ : 0 < S_.numel
  bcast_S_S256x17 : S_.BroadcastsInDim S256x17 (![] : Fin 0 → Fin S256x17.rank)
  reducesTo_S256x17_S_d0_1 : S256x17.ReducesTo [0, 1] S_

variable [Facts]

def fn {F : FTy → Type} [FloatOps F] (main_arg0 : FVec F S256x18x9488 .f32) (main_arg1 : IVec S256x17 32) : IVec S_ 1 :=
  let main_v0 : FVec F S256x18x9488 .f32 := Host.absf main_arg0
  let main_cst : FVec F S_ .f32 := constant S_ .f32 0x7F800000#32
  let main_v1 : FVec F S256x18x9488 .f32 := broadcastInDim S256x18x9488 ![] bcast_S_S256x18x9488 main_cst
  let main_v2 : IVec S256x18x9488 1 := cmpf .olt main_v0 main_v1
  let main_c : IVec S_ 1 := constantI S_ 1 1#1
  let main_v3 : IVec S_ 1 := (fun x v => Host.reduce IntOp.andi x v reducesTo_S256x18x9488_S_d0_1_2 h_S_) main_v2 main_c
  let main_c_0 : IVec S_ 32 := constantI S_ 32 0#32
  let main_v4 : IVec S256x17 32 := broadcastInDim S256x17 ![] bcast_S_S256x17 main_c_0
  let main_v5 : IVec S256x17 1 := cmpi .sge main_arg1 main_v4
  let main_c_1 : IVec S_ 32 := constantI S_ 32 9488#32
  let main_v6 : IVec S256x17 32 := broadcastInDim S256x17 ![] bcast_S_S256x17 main_c_1
  let main_v7 : IVec S256x17 1 := cmpi .slt main_arg1 main_v6
  let main_v8 : IVec S256x17 1 := andi main_v5 main_v7
  let main_c_2 : IVec S_ 1 := constantI S_ 1 1#1
  let main_v9 : IVec S_ 1 := (fun x v => Host.reduce IntOp.andi x v reducesTo_S256x17_S_d0_1 h_S_) main_v8 main_c_2
  let main_v10 : IVec S_ 1 := andi main_v3 main_v9
  main_v10
-- ==== Kernel.lean ====
abbrev S256x18x9488 : Shape := ⟨3, ![256, 18, 9488]⟩
abbrev S256x17 : Shape := ⟨2, ![256, 17]⟩
abbrev S_ : Shape := ⟨0, ![]⟩
abbrev S1x1 : Shape := ⟨2, ![1, 1]⟩
abbrev S8x18x9488 : Shape := ⟨3, ![8, 18, 9488]⟩
abbrev S8x17 : Shape := ⟨2, ![8, 17]⟩
abbrev S8x17x9488 : Shape := ⟨3, ![8, 17, 9488]⟩
abbrev S8x17x1 : Shape := ⟨3, ![8, 17, 1]⟩
abbrev S1x8x17 : Shape := ⟨3, ![1, 8, 17]⟩
abbrev S1 : Shape := ⟨1, ![1]⟩
abbrev S1x1x1 : Shape := ⟨3, ![1, 1, 1]⟩

abbrev nBuf : Space → Nat
  | .hbm => 22
  | .vmem => 7
  | .smem => 0
  | _ => 0

abbrev bufTy : (tb : Table) → Fin (tcTables nBuf tb) → BufTy
  | .hbm, ⟨0, _⟩ => ⟨S256x18x9488, .f32⟩
  | .hbm, ⟨1, _⟩ => ⟨S256x17, .i32⟩
  | .hbm, ⟨2, _⟩ => ⟨S_, .i32⟩
  | .hbm, ⟨3, _⟩ => ⟨S_, .i32⟩
  | .hbm, ⟨4, _⟩ => ⟨S256x17, .i32⟩
  | .hbm, ⟨5, _⟩ => ⟨S_, .i32⟩
  | .hbm, ⟨6, _⟩ => ⟨S256x17, .i32⟩
  | .hbm, ⟨7, _⟩ => ⟨S256x17, .i1⟩
  | .hbm, ⟨8, _⟩ => ⟨S256x17, .i32⟩
  | .hbm, ⟨9, _⟩ => ⟨S_, .i32⟩
  | .hbm, ⟨10, _⟩ => ⟨S_, .i32⟩
  | .hbm, ⟨11, _⟩ => ⟨S256x17, .i32⟩
  | .hbm, ⟨12, _⟩ => ⟨S_, .i32⟩
  | .hbm, ⟨13, _⟩ => ⟨S256x17, .i32⟩
  | .hbm, ⟨14, _⟩ => ⟨S256x17, .i1⟩
  | .hbm, ⟨15, _⟩ => ⟨S256x17, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S8x18x9488, .f32⟩
  | .local _ .vmem, ⟨1, _⟩ => ⟨S8x18x9488, .f32⟩
  | .local _ .vmem, ⟨2, _⟩ => ⟨S8x17, .i32⟩
  | .local _ .vmem, ⟨3, _⟩ => ⟨S8x17, .i32⟩
  | .local _ .vmem, ⟨4, _⟩ => ⟨S8x17, .f32⟩
  | .local _ .vmem, ⟨5, _⟩ => ⟨S8x17, .f32⟩
  | .local _ .vmem, ⟨6, _⟩ => ⟨S1x1, .f32⟩
  | _, _ => ⟨S256x18x9488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call1_call0_c : Ref sig .tc := ⟨.hbm, 9, rfl⟩
abbrev main_call1_call0_v0 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x18x9488 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x17 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  pads_S256x17_S256x17_000_000 : S256x17.Pads (![0, 0] : Fin 2 → Nat) ![0, 0] ![0, 0] S256x17
  h_S_ : 0 < S_.numel
  bcast_S_S256x17 : S_.BroadcastsInDim S256x17 (![] : Fin 0 → Fin S256x17.rank)
  natLt_1_32 : 1 < 32
  bcast_S_S_ : S_.BroadcastsInDim S_ (![] : Fin 0 → Fin S_.rank)
  reduceWindows_S256x17_S256x17_w1s1p0_0_w17s1p16_0 : S256x17.ReduceWindows (![1, 17] : Fin 2 → Nat) ![1, 1] ![0, 16] ![0, 0] S256x17
  reducesTo_S256x17_S_d0_1 : S256x17.ReducesTo [0, 1] S_
  inb_S1x1_S1x1_0_0 : ∀ a, (![0, 0] : Fin 2 → Nat) a + S1x1.size a ≤ S1x1.size a
  h_S1x1 : 0 < S1x1.numel
  inb_S8x18x9488_S8x18x9488_0_0_0 : ∀ a, (![0, 0, 0] : Fin 3 → Nat) a + S8x18x9488.size a ≤ S8x18x9488.size a
  h_S8x18x9488 : 0 < S8x18x9488.numel
  slices_S8x18x9488_o0_1_0_S8x17x9488 : S8x18x9488.Slices ![0, 1, 0] S8x17x9488
  inb_S8x17_S8x17_0_0 : ∀ a, (![0, 0] : Fin 2 → Nat) a + S8x17.size a ≤ S8x17.size a
  h_S8x17 : 0 < S8x17.numel
  shapeCasts_S8x17_S8x17 : S8x17.ShapeCasts S8x17
  iota_S8x17x9488_d2_w32 : S8x17x9488.Iotas .tc 32 [2]
  shapeCasts_S8x17_S8x17x1 : S8x17.ShapeCasts S8x17x1
  broadcasts_S8x17x1_S8x17x9488 : S8x17x1.Broadcasts S8x17x9488
  reduces_S8x17x9488_S8x17 : S8x17x9488.Reduces [2] S8x17
  shapeCasts_S1x1_S1x1 : S1x1.ShapeCasts S1x1
  shapeCasts_S8x17_S1x8x17 : S8x17.ShapeCasts S1x8x17
  reduces_S1x8x17_S1 : S1x8x17.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x18x9488.size a ≤ S256x18x9488.size a
  hwx0_0 : ∀ i : grid0.Coords, EltTy.bits .f32 = 32 ∨ (Rect.block (s := S256x18x9488) S8x18x9488.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x17.size a ≤ S256x17.size a
  hwx0_1 : ∀ i : grid0.Coords, EltTy.bits .i32 = 32 ∨ (Rect.block (s := S256x17) S8x17.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x17.size a ≤ S256x17.size a
  hwx0_2 : ∀ i : grid0.Coords, EltTy.bits .f32 = 32 ∨ (Rect.block (s := S256x17) S8x17.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S8x18x9488.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x17.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8x17.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x18x9488 : Shape := ⟨3, ![256, 18, 9488]⟩
abbrev S256x17 : Shape := ⟨2, ![256, 17]⟩
abbrev S_ : Shape := ⟨0, ![]⟩
abbrev S256x17x9488 : Shape := ⟨3, ![256, 17, 9488]⟩
abbrev S256x17x1 : Shape := ⟨3, ![256, 17, 1]⟩
abbrev S256x17x1x1 : Shape := ⟨4, ![256, 17, 1, 1]⟩
abbrev S1 : Shape := ⟨1, ![1]⟩
abbrev S1x1x1x1 : Shape := ⟨4, ![1, 1, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S256x18x9488, .f32⟩
  | .hbm, ⟨1, _⟩ => ⟨S256x17, .i32⟩
  | .hbm, ⟨2, _⟩ => ⟨S_, .i32⟩
  | .hbm, ⟨3, _⟩ => ⟨S_, .i32⟩
  | .hbm, ⟨4, _⟩ => ⟨S256x17, .i32⟩
  | .hbm, ⟨5, _⟩ => ⟨S_, .i32⟩
  | .hbm, ⟨6, _⟩ => ⟨S256x17, .i32⟩
  | .hbm, ⟨7, _⟩ => ⟨S256x17, .i1⟩
  | .hbm, ⟨8, _⟩ => ⟨S256x17, .i32⟩
  | .hbm, ⟨9, _⟩ => ⟨S_, .i32⟩
  | .hbm, ⟨10, _⟩ => ⟨S_, .i32⟩
  | .hbm, ⟨11, _⟩ => ⟨S256x17, .i32⟩
  | .hbm, ⟨12, _⟩ => ⟨S_, .i32⟩
  | .hbm, ⟨13, _⟩ => ⟨S256x17, .i32⟩
  | .hbm, ⟨14, _⟩ => ⟨S256x17, .i1⟩
  | .hbm, ⟨15, _⟩ => ⟨S256x17x9488, .f32⟩
  | .hbm, ⟨16, _⟩ => ⟨S256x17x1, .i32⟩
  | .hbm, ⟨17, _⟩ => ⟨S_, .i32⟩
  | .hbm, ⟨18, _⟩ => ⟨S256x17x1, .i32⟩
  | .hbm, ⟨19, _⟩ => ⟨S256x17x1, .i1⟩
  | .hbm, ⟨20, _⟩ => ⟨S_, .i32⟩
  | .hbm, ⟨21, _⟩ => ⟨S256x17x1, .i32⟩
  | .hbm, ⟨22, _⟩ => ⟨S256x17x1, .i32⟩
  | .hbm, ⟨23, _⟩ => ⟨S256x17x1, .i32⟩
  | .hbm, ⟨24, _⟩ => ⟨S256x17x1x1, .i32⟩
  | .hbm, ⟨25, _⟩ => ⟨S1, .i32⟩
  | .hbm, ⟨26, _⟩ => ⟨S_, .i32⟩
  | .hbm, ⟨27, _⟩ => ⟨S256x17x1x1, .i32⟩
  | .hbm, ⟨28, _⟩ => ⟨S256x17x1x1, .i1⟩
  | .hbm, ⟨29, _⟩ => ⟨S1x1x1x1, .i32⟩
  | .hbm, ⟨30, _⟩ => ⟨S256x17x1x1, .i32⟩
  | .hbm, ⟨31, _⟩ => ⟨S256x17x1x1, .i1⟩
  | .hbm, ⟨32, _⟩ => ⟨S256x17x1x1, .i1⟩
  | .hbm, ⟨33, _⟩ => ⟨S_, .i1⟩
  | .hbm, ⟨34, _⟩ => ⟨S256x17x1, .i1⟩
  | .hbm, ⟨35, _⟩ => ⟨S256x17x1, .f32⟩
  | .hbm, ⟨36, _⟩ => ⟨S_, .f32⟩
  | .hbm, ⟨37, _⟩ => ⟨S256x17x1, .f32⟩
  | .hbm, ⟨38, _⟩ => ⟨S256x17x1, .f32⟩
  | .hbm, ⟨39, _⟩ => ⟨S256x17, .f32⟩
  | .hbm, ⟨40, _⟩ => ⟨S256x17, .f32⟩
  | .hbm, ⟨41, _⟩ => ⟨S_, .f32⟩
  | .hbm, ⟨42, _⟩ => ⟨S_, .f32⟩
  | .hbm, ⟨43, _⟩ => ⟨S256x17, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S256x18x9488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call1_call0_c : Ref sig .tc := ⟨.hbm, 9, rfl⟩
abbrev main_call1_call0_v0 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call2_c : Ref sig .tc := ⟨.hbm, 17, rfl⟩
abbrev main_call2_v0 : Ref sig .tc := ⟨.hbm, 18, rfl⟩
abbrev main_call2_v1 : Ref sig .tc := ⟨.hbm, 19, rfl⟩
abbrev main_call2_c_0 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_v5 : Ref sig .tc := ⟨.hbm, 24, rfl⟩
abbrev main_call2_c_1 : Ref sig .tc := ⟨.hbm, 25, rfl⟩
abbrev main_call2_c_2 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_3 : Ref sig .tc := ⟨.hbm, 33, rfl⟩
abbrev main_call2_v12 : Ref sig .tc := ⟨.hbm, 34, rfl⟩
abbrev main_call2_v13 : Ref sig .tc := ⟨.hbm, 35, rfl⟩
abbrev main_call2_cst : Ref sig .tc := ⟨.hbm, 36, rfl⟩
abbrev main_call2_v14 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst : Ref sig .tc := ⟨.hbm, 41, rfl⟩
abbrev main_v12 : Ref sig .tc := ⟨.hbm, 42, rfl⟩
abbrev main_v13 : Ref sig .tc := ⟨.hbm, 43, rfl⟩
abbrev main_cst_2 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩

abbrev nD : Nat := 1
abbrev τ : Topo := Topo.v7x

variable {F : FTy → Type} [FloatOps F]

class Facts₀ : Prop where
  pads_S256x17_S256x17_000_000 : S256x17.Pads (![0, 0] : Fin 2 → Nat) ![0, 0] ![0, 0] S256x17
  h_S_ : 0 < S_.numel
  bcast_S_S256x17 : S_.BroadcastsInDim S256x17 (![] : Fin 0 → Fin S256x17.rank)
  natLt_1_32 : 1 < 32
  bcast_S_S_ : S_.BroadcastsInDim S_ (![] : Fin 0 → Fin S_.rank)
  reduceWindows_S256x17_S256x17_w1s1p0_0_w17s1p16_0 : S256x17.ReduceWindows (![1, 17] : Fin 2 → Nat) ![1, 1] ![0, 16] ![0, 0] S256x17
  slices_S256x18x9488_S256x17x9488_0_1_0 : S256x18x9488.Slices ![0, 1, 0] S256x17x9488
  bcast_S256x17_S256x17x1_0_1 : S256x17.BroadcastsInDim S256x17x1 (![0, 1] : Fin 2 → Fin S256x17x1.rank)
  bcast_S_S256x17x1 : S_.BroadcastsInDim S256x17x1 (![] : Fin 0 → Fin S256x17x1.rank)
  shapeCasts_S256x17x1_S256x17x1x1 : S256x17x1.ShapeCasts S256x17x1x1
  bcast_S_S256x17x1x1 : S_.BroadcastsInDim S256x17x1x1 (![] : Fin 0 → Fin S256x17x1x1.rank)
  bcast_S1_S1x1x1x1_3 : S1.BroadcastsInDim S1x1x1x1 (![3] : Fin 1 → Fin S1x1x1x1.rank)
  bcast_S1x1x1x1_S256x17x1x1_0_1_2_3 : S1x1x1x1.BroadcastsInDim S256x17x1x1 (![0, 1, 2, 3] : Fin 4 → Fin S256x17x1x1.rank)
  reducesTo_S256x17x1x1_S256x17x1_d3 : S256x17x1x1.ReducesTo [3] S256x17x1
  shapeCasts_S256x17x1_S256x17 : S256x17x1.ShapeCasts S256x17
  reducesTo_S256x17_S_d0_1 : S256x17.ReducesTo [0, 1] S_
  gather_S256x17x9488_S256x17x1x1_S256x17x1_n_2_01_01_2_3_111_wf : GatherDims.WF S256x17x9488 S256x17x1x1 S256x17x1 [] [2] [0, 1] [2] [0, 1] 3 ![1, 1, 1]

variable [Facts₀]

def gather_S256x17x9488_S256x17x1x1_S256x17x1_n_2_01_01_2_3_111 : GatherDims S256x17x9488 S256x17x1x1 S256x17x1 where
  offsetDims := []
  collapsedSliceDims := [2]
  operandBatchingDims := [0, 1]
  startIndicesBatchingDims := [0, 1]
  startIndexMap := [2]
  indexVectorDim := 3
  sliceSizes := ![1, 1, 1]
  wf := gather_S256x17x9488_S256x17x1x1_S256x17x1_n_2_01_01_2_3_111_wf

class Facts : Prop extends Facts₀ where

variable [Facts]
-- ==== Proof.Spec.lean ====
/-
  The function both programs compute, over the extended reals.

  x : [256, 18, 9488] log-probabilities, tgt : [256, 17] token ids. With M the stop mask of tgt (a position counts while
  the inclusive count of zero tokens along its row is at most one) and n the sum of M,

      loss = -(0 + ∑ over (b, t) of x[b, t + 1, tgt[b, t]] * M[b, t]) / n.

  The mask and its sum are the same chain of integer operations in both programs, so they are carried here as ONE
  definition each and never opened.
-/
import Idealize.ShloMosaic.PureOps.Ideal
import Idealize.ShloMosaic.PureOps
import Idealize.ShloMosaic.Lib.ValueIdx
import Idealize.ShloMosaic.Lib.KernelVsHost

noncomputable section

namespace GatherLoss

open Idealize.ShloMosaic

abbrev SX : Shape := ⟨3, ![256, 18, 9488]⟩
abbrev ST : Shape := ⟨2, ![256, 17]⟩
abbrev S0 : Shape := ⟨0, ![]⟩

theorem hpads : ST.Pads (![0, 0] : Fin 2 → Nat) ![0, 0] ![0, 0] ST := by decide
theorem hS0 : 0 < S0.numel := by decide
theorem hbST : S0.BroadcastsInDim ST (![] : Fin 0 → Fin ST.rank) := by decide
theorem hbS0 : S0.BroadcastsInDim S0 (![] : Fin 0 → Fin S0.rank) := by decide
theorem hrw : ST.ReduceWindows (![1, 17] : Fin 2 → Nat) ![1, 1] ![0, 16] ![0, 0] ST := by decide
theorem hred : ST.ReducesTo [0, 1] S0 := by decide

/-- Every token id is a position of the vocabulary axis. -/
def InRange (tgt : IVec ST 32) : Prop := ∀ j : ST.Idx, (tgt j).toNat < 9488

/-- A pad by nothing on every side is the identity. -/
theorem pad_nothing {α : Type} (x : ST.Idx → α) (v : S0.Idx → α) (h : ST.Pads (![0, 0] : Fin 2 → Nat) ![0, 0] ![0, 0] ST)
    (hu : 0 < S0.numel) : pad ST ![0, 0] ![0, 0] ![0, 0] x v h hu = x := by
  funext j
  refine pad_apply_of_inside _ _ _ x v h hu j j fun a => ?_
  match a with
  | ⟨0, _⟩ => show (j 0).val = 0 + (j 0).val * (0 + 1); omega
  | ⟨1, _⟩ => show (j 1).val = 0 + (j 1).val * (0 + 1); omega

/-- The stop mask as a float: 1 while the inclusive running count of zero tokens along the row is at most one. -/
def maskOf (tgt : IVec ST 32) : FVec Ideal ST .f32 :=
  uitofp .f32 (cmpi .sle
    (Host.reduceWindow IntOp.addi ![1, 17] ![1, 1] ![0, 16] ![0, 0]
      (extui 32 (cmpi .eq tgt (broadcastInDim ST ![] hbST (constantI S0 32 0#32))) (by decide))
      (broadcastInDim S0 ![] hbS0 (constantI S0 32 0#32)) hrw hS0)
    (broadcastInDim ST ![] hbST (constantI S0 32 1#32)))

/-- How many positions count. -/
def countOf (tgt : IVec ST 32) : FVec Ideal S0 .f32 :=
  Host.reduceAdd (maskOf tgt) (constant S0 .f32 0x00000000#32) hred hS0

/-- Where position (b, t) reads x: row b, step t + 1, the token's column (clamped, which changes nothing in range). -/
def pickIdx (tgt : IVec ST 32) (j : ST.Idx) : SX.Idx := fun a =>
  match a with
  | ⟨0, _⟩ => ⟨(j 0).val, (j 0).isLt⟩
  | ⟨1, _⟩ => ⟨(j 1).val + 1, by have : (j 1).val < 17 := (j 1).isLt; show _ < 18; omega⟩
  | ⟨2, _⟩ => ⟨min (tgt j).toNat 9487, by show _ < 9488; omega⟩

/-- The masked sum of the picked entries, from zero. -/
def total (x : SX.Idx → EReal) (tgt : IVec ST 32) (M : ST.Idx → EReal) : EReal :=
  0 + ∑ j : ST.Idx, x (pickIdx tgt j) * M j

/-- The loss. -/
def loss (x : FVec Ideal SX .f32) (tgt : IVec ST 32) : FVec Ideal S0 .f32 :=
  Host.divf (Host.negf (fun _ => total x tgt (maskOf tgt))) (countOf tgt)

end GatherLoss

end
-- ==== Proof.PreRange.lean ====
/-
  The precondition decoded: every token id is a position of the vocabulary axis.

  The printed precondition is the conjunction of two `all`s: every entry of x is finite, and every token id t satisfies
  0 ≤ t and t < 9488, both comparisons reading the 32-bit word signed. Only the second conjunct is used here. A word
  whose signed value is non-negative has its top bit clear, so its signed and unsigned values agree; being below 9488
  signed, it is below 9488 as a natural number.
-/
import proofs.«414372_j57990648430739_2_alg».proof.Pre_finite_inputs
import proofs.«414372_j57990648430739_2_alg».proof.Proof.Gen.Pre_finite_inputs
import proofs.«414372_j57990648430739_2_alg».proof.Proof.Spec
import Idealize.ShloMosaic.Lib.StableHlo.Predicate
import Idealize.ShloMosaic.Lib.ReduceAll
import Idealize.ShloMosaic.Lib.ValueIdx
import Idealize.ShloMosaic.Lib.Affine

namespace Cert.PreRange

open Idealize.ShloMosaic Cert.Pre_finite_inputs

/-- A rank-0 shape has one index. -/
instance : Subsingleton S_.Idx := ⟨fun a b => funext fun d => d.elim0⟩

/-- A 32-bit word that is at least 0 and below n, both read signed, is below n read unsigned (n below 2³¹). -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  -- non-negative signed: the top bit is clear, and the two readings of the word agree
  have htop : 2 * w.toNat < 2 ^ 32 := BitVec.toInt_pos_iff.mp h0
  rw [BitVec.toInt_eq_toNat_of_lt htop] at h1
  omega

/-- THE PRECONDITION DECODED: where the printed predicate is 1, every token id is below 9488. -/
theorem inRange_of_pre {F : FTy → Type} [FloatOps F] (x : FVec F Cert.Pre_finite_inputs.S256x18x9488 .f32)
    (tgt : IVec Cert.Pre_finite_inputs.S256x17 32)
    (h : Cert.Pre_finite_inputs.fn (F := F) x tgt = fun _ => 1#1) : GatherLoss.InRange tgt := by
  intro j
  -- the predicate at its one index: (all entries finite) and (all ids in range)
  have e := congrFun h ValueIdx.ix0
  dsimp only [Cert.Pre_finite_inputs.fn] at e
  obtain ⟨-, hall⟩ := IntOp.andi_eq_one.1 e
  -- an `all` that is 1 had a 1 at every position; at position j the 1 is a conjunction of the two comparisons
  have hj := Host.reduce_andi_all _ _ _ _ _ hall j
  obtain ⟨hge, hlt⟩ := IntOp.andi_eq_one.1 hj
  -- a scalar broadcast reads the scalar everywhere: the comparisons are against 0 and 9488
  have hge' : IntOp.cmpi .sge (tgt j) 0#32 = 1#1 := hge
  have hlt' : IntOp.cmpi .slt (tgt j) (BitVec.ofNat 32 9488) = 1#1 := hlt
  exact toNat_lt_of_signed (tgt j) 9488 (by decide) hge' hlt'

end Cert.PreRange
-- ==== Proof.RefRun.lean ====
/-
  The reference's @main as ONE straight line of its forty-six host operations, the three outlined functions
  (the pad by nothing, the running count through its inner reduce_window, the take along the vocabulary axis)
  unfolded at their calls over the calls' own buffers, and its run read back: every weakly fair execution
  terminates with each buffer at the fold of the operations over the launch contents. Generic in the float
  instance. The frame (both arguments unchanged) is read off the fold here; the value of the result is read in
  the module that imports this one.
-/
import proofs.«414372_j57990648430739_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the zero, the pad's two (the padding value converted to its own
    type, the pad), the comparison with zero and its widening (four), the running count's three (the zero, its
    broadcast, the reduce_window), the comparison with one (three), the slice and the index's broadcast, the take's
    twenty-two (the wrap of a negative index, the bounds test, the gather, the not-a-number fill, the select), then the
    reshape, the mask as a float, the two sums, the product, the negation and the quotient. -/
abbrev ops : List (HloOp τ sig (Elt F)) :=
  [ nullary main_c (constantI S_ 32 0#32),
    TRef.unary (.of main_c) main_call0.v0 id,
    TRef.binary (.of main_arg1) main_call0.v0 main_call0.v1 (fun x v => pad S256x17 ![0, 0] ![0, 0] ![0, 0] x v pads_S256x17_S256x17_000_000 h_S_),
    nullary main_c_0 (constantI S_ 32 0#32),
    unary main_c_0 main_v1 (broadcastInDim S256x17 ![] bcast_S_S256x17 : (⟨S_, .i32⟩ : BufTy).Contents (Elt F) → (⟨S256x17, .i32⟩ : BufTy).Contents (Elt F)),
    binary main_v0 main_v1 main_v2 (cmpi .eq : (⟨S256x17, .i32⟩ : BufTy).Contents (Elt F) → (⟨S256x17, .i32⟩ : BufTy).Contents (Elt F) → (⟨S256x17, .i1⟩ : BufTy).Contents (Elt F)),
    unary main_v2 main_v3 ((extui 32 · natLt_1_32) : (⟨S256x17, .i1⟩ : BufTy).Contents (Elt F) → (⟨S256x17, .i32⟩ : BufTy).Contents (Elt F)),
    TRef.nullary main_call1.call0.c (constantI S_ 32 0#32),
    TRef.unary main_call1.call0.c main_call1.call0.v0 (broadcastInDim S_ ![] bcast_S_S_),
    TRef.binary (.of main_v3) main_call1.call0.v0 main_call1.call0.v1 (fun x v => Host.reduceWindow IntOp.addi ![1, 17] ![1, 1] ![0, 16] ![0, 0] x v reduceWindows_S256x17_S256x17_w1s1p0_0_w17s1p16_0 h_S_),
    nullary main_c_1 (constantI S_ 32 1#32),
    unary main_c_1 main_v5 (broadcastInDim S256x17 ![] bcast_S_S256x17 : (⟨S_, .i32⟩ : BufTy).Contents (Elt F) → (⟨S256x17, .i32⟩ : BufTy).Contents (Elt F)),
    binary main_v4 main_v5 main_v6 (cmpi .sle : (⟨S256x17, .i32⟩ : BufTy).Contents (Elt F) → (⟨S256x17, .i32⟩ : BufTy).Contents (Elt F) → (⟨S256x17, .i1⟩ : BufTy).Contents (Elt F)),
    unary main_arg0 main_v7 ((extractStridedSlice S256x17x9488 ![0, 1, 0] · slices_S256x18x9488_S256x17x9488_0_1_0) : (⟨S256x18x9488, .f32⟩ : BufTy).Contents (Elt F) → (⟨S256x17x9488, .f32⟩ : BufTy).Contents (Elt F)),
    unary main_v0 main_v8 (broadcastInDim S256x17x1 ![0, 1] bcast_S256x17_S256x17x1_0_1 : (⟨S256x17, .i32⟩ : BufTy).Contents (Elt F) → (⟨S256x17x1, .i32⟩ : BufTy).Contents (Elt F)),
    TRef.nullary main_call2.c (constantI S_ 32 0#32),
    TRef.unary main_call2.c main_call2.v0 (broadcastInDim S256x17x1 ![] bcast_S_S256x17x1),
    TRef.binary (.of main_v8) main_call2.v0 main_call2.v1 (cmpi .slt),
    TRef.nullary main_call2.c_0 (constantI S_ 32 9488#32),
    TRef.unary main_call2.c_0 main_call2.v2 (broadcastInDim S256x17x1 ![] bcast_S_S256x17x1),
    TRef.binary (.of main_v8) main_call2.v2 main_call2.v3 addi,
    TRef.ternary main_call2.v1 main_call2.v3 (.of main_v8) main_call2.v4 select,
    TRef.reshape main_call2.v4 main_call2.v5 rfl shapeCasts_S256x17x1_S256x17x1x1,
    TRef.nullary main_call2.c_1 (constantI S1 32 9487#32),
    TRef.nullary main_call2.c_2 (constantI S_ 32 0#32),
    TRef.unary main_call2.c_2 main_call2.v6 (broadcastInDim S256x17x1x1 ![] bcast_S_S256x17x1x1),
    TRef.binary main_call2.v5 main_call2.v6 main_call2.v7 (cmpi .sge),
    TRef.unary main_call2.c_1 main_call2.v8 (broadcastInDim S1x1x1x1 ![3] bcast_S1_S1x1x1x1_3),
    TRef.unary main_call2.v8 main_call2.v9 (broadcastInDim S256x17x1x1 ![0, 1, 2, 3] bcast_S1x1x1x1_S256x17x1x1_0_1_2_3),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S256x17x1x1_S256x17x1_d3 h_S_),
    TRef.binary (.of main_v7) main_call2.v5 main_call2.v13 (fun x i => Host.gather gather_S256x17x9488_S256x17x1x1_S256x17x1_n_2_01_01_2_3_111 x i),
    TRef.nullary main_call2.cst (constant S_ .f32 0x7FC00000#32),
    TRef.unary main_call2.cst main_call2.v14 (broadcastInDim S256x17x1 ![] bcast_S_S256x17x1),
    TRef.ternary main_call2.v12 main_call2.v13 main_call2.v14 main_call2.v15 select,
    reshape main_v9 main_v10 rfl shapeCasts_S256x17x1_S256x17,
    unary main_v6 main_v11 (uitofp .f32 : (⟨S256x17, .i1⟩ : BufTy).Contents (Elt F) → (⟨S256x17, .f32⟩ : BufTy).Contents (Elt F)),
    nullary main_cst (constant S_ .f32 0x00000000#32),
    binary main_v11 main_cst main_v12 ((fun x v => Host.reduceAdd x v reducesTo_S256x17_S_d0_1 h_S_) : (⟨S256x17, .f32⟩ : BufTy).Contents (Elt F) → (⟨S_, .f32⟩ : BufTy).Contents (Elt F) → (⟨S_, .f32⟩ : BufTy).Contents (Elt F)),
    binary main_v10 main_v11 main_v13 (mulf : (⟨S256x17, .f32⟩ : BufTy).Contents (Elt F) → (⟨S256x17, .f32⟩ : BufTy).Contents (Elt F) → (⟨S256x17, .f32⟩ : BufTy).Contents (Elt F)),
    nullary main_cst_2 (constant S_ .f32 0x00000000#32),
    binary main_v13 main_cst_2 main_v14 ((fun x v => Host.reduceAdd x v reducesTo_S256x17_S_d0_1 h_S_) : (⟨S256x17, .f32⟩ : BufTy).Contents (Elt F) → (⟨S_, .f32⟩ : BufTy).Contents (Elt F) → (⟨S_, .f32⟩ : BufTy).Contents (Elt F)),
    unary main_v14 main_v15 (Host.negf : (⟨S_, .f32⟩ : BufTy).Contents (Elt F) → (⟨S_, .f32⟩ : BufTy).Contents (Elt F)),
    binary main_v15 main_v12 main_v16 (Host.divf : (⟨S_, .f32⟩ : BufTy).Contents (Elt F) → (⟨S_, .f32⟩ : BufTy).Contents (Elt F) → (⟨S_, .f32⟩ : BufTy).Contents (Elt F)) ]

-- forty-six binds re-associated: the rewrite under the chain recurses once per statement
set_option maxRecDepth 2048 in
/-- @main is that straight line: the functions' definitions unfolded at their calls, both sides are one chain of
    host steps once sequencing is re-associated. -/
theorem main_eq (c : Dev nD) : main (F := F) c = seq ops := by
  simp only [main, fn_pad.body, fn_cumsum.body, fn_cumsum_0.body, fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., unary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    reshape_bufs_sub .., unary_bufs_sub .., nullary_bufs_sub .., binary_bufs_sub .., binary_bufs_sub .., nullary_bufs_sub ..,
    binary_bufs_sub .., unary_bufs_sub .., binary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation of the line writes the first argument. -/
theorem arg0_eq (V : Valuation τ sig (Elt F)) : after ops V (main_arg0 : DevRef τ sig) = V (main_arg0 : DevRef τ sig) := by
  after_results

/-- No operation of the line writes the second argument. -/
theorem arg1_eq (V : Valuation τ sig (Elt F)) : after ops V (main_arg1 : DevRef τ sig) = V (main_arg1 : DevRef τ sig) := by
  after_results

/-- The frame, with no hypothesis and for any float values: every weakly fair execution of @main terminates with both
    arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_arg0).trans (arg0_eq _), (h c main_arg1).trans (arg1_eq _)⟩) (run_main m ρ)

end Cert.ReferenceIdeal.RefRun

end
-- ==== Proof.RefTerm.lean ====
/-
  The reference's result as ONE composed term of its two arguments, and that term read as the loss.

  The reference pads the token ids by nothing, builds the stop mask M and its sum n by the shared integer chain, then
  TAKES x[b, t + 1, tgt[b, t]] through jnp's take_along_axis: the ids become a column of start indices, a negative id is
  wrapped around by the axis length, a bounds test 0 ≤ id ≤ 9487 guards the gather (out of bounds reads not-a-number),
  and the gather itself clamps its start index into the axis. For ids inside the vocabulary axis the wrap is the
  identity, the bounds test is all ones, and the gather at (b, t, 0) reads the sliced log-probabilities at
  (b, t, tgt[b, t]), which is x at (b, t + 1, tgt[b, t]). The masked sum over all positions is then 0 + ∑, and the
  result −(0 + ∑) / n is the loss.
-/
import proofs.«414372_j57990648430739_2_alg».proof.Proof.Spec
import Idealize.ShloMosaic.Lib.StableHlo.Predicate
import Idealize.ShloMosaic.Lib.ValueLayout
import Idealize.ShloMosaic.Lib.IdealHost
import Idealize.ShloMosaic.PureOps.Reduce

noncomputable section

namespace GatherLoss

open Idealize.ShloMosaic Idealize.ShloMosaic.ValueIdx

/-- The log-probabilities with the first step cut off. -/
abbrev SV : Shape := ⟨3, ![256, 17, 9488]⟩
/-- The token ids as a column of start indices, and as the gather's index table. -/
abbrev SC : Shape := ⟨3, ![256, 17, 1]⟩
abbrev SQ : Shape := ⟨4, ![256, 17, 1, 1]⟩
abbrev SOne : Shape := ⟨1, ![1]⟩
abbrev SOnes : Shape := ⟨4, ![1, 1, 1, 1]⟩

theorem hslice : SX.Slices ![0, 1, 0] SV := by decide
theorem hbTC : ST.BroadcastsInDim SC (![0, 1] : Fin 2 → Fin SC.rank) := by decide
theorem hb0C : S0.BroadcastsInDim SC (![] : Fin 0 → Fin SC.rank) := by decide
theorem hcCQ : SC.ShapeCasts SQ := by decide
theorem hb0Q : S0.BroadcastsInDim SQ (![] : Fin 0 → Fin SQ.rank) := by decide
theorem hb1 : SOne.BroadcastsInDim SOnes (![3] : Fin 1 → Fin SOnes.rank) := by decide
theorem hb1Q : SOnes.BroadcastsInDim SQ (![0, 1, 2, 3] : Fin 4 → Fin SQ.rank) := by decide
theorem hredQC : SQ.ReducesTo [3] SC := by decide
theorem hcCT : SC.ShapeCasts ST := by decide
theorem hwf : GatherDims.WF SV SQ SC [] [2] [0, 1] [2] [0, 1] 3 ![1, 1, 1] := by decide

/-- The take along the vocabulary axis as a gather: rows and steps are batching axes of operand and index table alike,
    the vocabulary axis is collapsed and start-indexed, one element per slice. -/
def takeDims : GatherDims SV SQ SC where
  offsetDims := []
  collapsedSliceDims := [2]
  operandBatchingDims := [0, 1]
  startIndicesBatchingDims := [0, 1]
  startIndexMap := [2]
  indexVectorDim := 3
  sliceSizes := ![1, 1, 1]
  wf := hwf

section Gather
variable {α : Type} (x : SV.Idx → α) (i : IVec SQ 32) (b : Fin 256) (s : Fin 17)

/-- On the row axis (batching) the gather's operand index is the result's row. -/
theorem opIdx_row : (takeDims.operandIdx (ix3 b s (0 : Fin 1)) i (0 : Fin 3)).val = b.val := by
  show takeDims.start (ix3 b s (0 : Fin 1)) i 0 + takeDims.batchCoord (ix3 b s (0 : Fin 1)) 0 + takeDims.offCoord (ix3 b s (0 : Fin 1)) 0 = b.val
  rw [takeDims.start_batching _ i 0 (by decide), takeDims.offCoord_eq_zero _ 0 (by decide), Nat.zero_add, Nat.add_zero]
  rfl

/-- On the step axis (batching) it is the result's step. -/
theorem opIdx_step : (takeDims.operandIdx (ix3 b s (0 : Fin 1)) i (1 : Fin 3)).val = s.val := by
  show takeDims.start (ix3 b s (0 : Fin 1)) i 1 + takeDims.batchCoord (ix3 b s (0 : Fin 1)) 1 + takeDims.offCoord (ix3 b s (0 : Fin 1)) 1 = s.val
  rw [takeDims.start_batching _ i 1 (by decide), takeDims.offCoord_eq_zero _ 1 (by decide), Nat.zero_add, Nat.add_zero]
  rfl

/-- On the vocabulary axis (collapsed, start-indexed) it is the start index at (b, t, 0, 0), read signed and clamped
    into the axis. -/
theorem opIdx_token : (takeDims.operandIdx (ix3 b s (0 : Fin 1)) i (2 : Fin 3)).val
    = min (i (ix4 b s (0 : Fin 1) (0 : Fin 1))).toInt.toNat 9487 := by
  show takeDims.start (ix3 b s (0 : Fin 1)) i 2 + takeDims.batchCoord (ix3 b s (0 : Fin 1)) 2 + takeDims.offCoord (ix3 b s (0 : Fin 1)) 2 = _
  rw [takeDims.batchCoord_eq_zero _ 2 (by decide), takeDims.offCoord_eq_zero _ 2 (by decide), Nat.add_zero]
  unfold GatherDims.start
  rw [dif_pos (show (2 : Fin 3) ∈ takeDims.startIndexMap from by decide)]
  have hsi : takeDims.siIdx (ix3 b s (0 : Fin 1)) ⟨List.idxOf (2 : Fin 3) takeDims.startIndexMap,
      List.idxOf_lt_length_iff.2 (by decide)⟩ = ix4 b s (0 : Fin 1) (0 : Fin 1) := by
    funext c; refine Fin.ext ?_
    match c with
    | ⟨0, _⟩ => rfl
    | ⟨1, _⟩ => rfl
    | ⟨2, _⟩ => rfl
    | ⟨3, _⟩ => rfl
  rw [hsi]
  rfl

/-- THE GATHER READ AT (b, t, 0): the operand at (b, t, the clamped start index). -/
theorem gather_read :
    Host.gather takeDims x i (ix3 b s (0 : Fin 1))
      = x (ix3 b s ⟨min (i (ix4 b s (0 : Fin 1) (0 : Fin 1))).toInt.toNat 9487, by omega⟩) := by
  unfold Host.gather
  congr 1
  funext a
  refine Fin.ext ?_
  match a with
  | ⟨0, _⟩ => exact opIdx_row i b s
  | ⟨1, _⟩ => exact opIdx_step i b s
  | ⟨2, _⟩ => exact opIdx_token i b s

end Gather

/-! ## The term -/

section Term
variable {F : FTy → Type} [FloatOps F]

/-- The index column with a negative id wrapped around by the axis length, as the gather's index table. -/
def wrapIdx (i : IVec SC 32) : IVec SQ 32 :=
  shapeCast SQ (select (cmpi .slt i (broadcastInDim SC ![] hb0C (constantI S0 32 0#32)))
    (addi i (broadcastInDim SC ![] hb0C (constantI S0 32 9488#32))) i) hcCQ

/-- The bounds test: 0 ≤ id ≤ 9487, and-reduced over the index vector's one component. -/
def inBounds (i : IVec SQ 32) : IVec SC 1 :=
  Host.reduce IntOp.andi
    (andi (cmpi .sge i (broadcastInDim SQ ![] hb0Q (constantI S0 32 0#32)))
      (cmpi .sle i (broadcastInDim SQ ![0, 1, 2, 3] hb1Q (broadcastInDim SOnes ![3] hb1 (constantI SOne 32 9487#32)))))
    (constantI S0 1 1#1) hredQC hS0

/-- jnp's take along the vocabulary axis: the gather where the index is in bounds, not-a-number elsewhere. -/
def takeAlong (x : FVec F SV .f32) (i : IVec SC 32) : FVec F SC .f32 :=
  select (inBounds (wrapIdx i)) (Host.gather takeDims x (wrapIdx i))
    (broadcastInDim SC ![] hb0C (constant S0 .f32 0x7FC00000#32))

/-- The picked log-probabilities, one per position. -/
def picked (x : FVec F SX .f32) (t : IVec ST 32) : FVec F ST .f32 :=
  shapeCast ST (takeAlong (extractStridedSlice SV ![0, 1, 0] x hslice) (broadcastInDim SC ![0, 1] hbTC t)) hcCT

/-- The stop mask as a float, for any float values (the specification's `maskOf` at the extended reals). -/
def maskG (t : IVec ST 32) : FVec F ST .f32 :=
  uitofp .f32 (cmpi .sle
    (Host.reduceWindow IntOp.addi ![1, 17] ![1, 1] ![0, 16] ![0, 0]
      (extui 32 (cmpi .eq t (broadcastInDim ST ![] hbST (constantI S0 32 0#32))) (by decide))
      (broadcastInDim S0 ![] hbS0 (constantI S0 32 0#32)) hrw hS0)
    (broadcastInDim ST ![] hbST (constantI S0 32 1#32)))

/-- The reference's result from the padded ids on. -/
def refCore (x : FVec F SX .f32) (t : IVec ST 32) : FVec F S0 .f32 :=
  Host.divf (Host.negf (Host.reduceAdd (mulf (picked x t) (maskG t)) (constant S0 .f32 0x00000000#32) hred hS0))
    (Host.reduceAdd (maskG t) (constant S0 .f32 0x00000000#32) hred hS0)

/-- The reference's result as one term of its two arguments. -/
def refOut (x : FVec F SX .f32) (t : IVec ST 32) : FVec F S0 .f32 :=
  refCore x (pad ST ![0, 0] ![0, 0] ![0, 0] t (constantI S0 32 0#32) hpads hS0)

end Term

/-! ## The term read -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- An id inside the axis is not wrapped. -/
theorem wrapIdx_apply (i : IVec SC 32) (b : Fin 256) (s : Fin 17) (h : (i (ix3 b s (0 : Fin 1))).toNat < 9488) :
    wrapIdx i (ix4 b s (0 : Fin 1) (0 : Fin 1)) = i (ix3 b s (0 : Fin 1)) := by
  unfold wrapIdx
  rw [shapeCast_apply _ hcCQ (ix4 b s (0 : Fin 1) (0 : Fin 1)) (ix3 b s (0 : Fin 1)) (by
    rw [Shape.rowMajor_val_three, Shape.rowMajor_val_four]
    show (b.val * 17 + s.val) * 1 + 0 = ((b.val * 17 + s.val) * 1 + 0) * 1 + 0
    omega)]
  show Scalar.select (IntOp.cmpi .slt (i (ix3 b s (0 : Fin 1))) 0#32) (IntOp.addi (i (ix3 b s (0 : Fin 1))) 9488#32)
    (i (ix3 b s (0 : Fin 1))) = _
  have hc : IntOp.cmpi .slt (i (ix3 b s (0 : Fin 1))) 0#32 = 0#1 :=
    eq_zero_of_ne_one fun e =>
      absurd ((StableHlo.Predicate.slt_iff_toNat (by omega) (by decide)).1 e) (Nat.not_lt_zero _)
  rw [hc, select_zero]

/-- Ids inside the axis pass the bounds test everywhere. -/
theorem inBounds_apply (i : IVec SQ 32) (h : ∀ k, (i k).toNat < 9488) (k : SC.Idx) : inBounds i k = 1#1 := by
  unfold inBounds
  rw [Host.reduce_eq_foldl]
  refine foldl_andi_ones _ (fun q => ?_) _
  show IntOp.andi (IntOp.cmpi .sge (i q) 0#32) (IntOp.cmpi .sle (i q) 9487#32) = 1#1
  have hq := h q
  rw [(StableHlo.Predicate.sge_iff_toNat (by omega) (by decide)).2 (Nat.zero_le _),
    (StableHlo.Predicate.sle_iff_toNat (by omega) (by decide)).2 (by show (i q).toNat ≤ 9487; omega)]
  rfl

section Read
variable {F : FTy → Type} [FloatOps F]

/-- The take at (b, t, 0), for ids inside the axis: the operand at (b, t, id). -/
theorem takeAlong_apply (x : FVec F SV .f32) (i : IVec SC 32) (h : ∀ k, (i k).toNat < 9488) (b : Fin 256) (s : Fin 17) :
    takeAlong x i (ix3 b s (0 : Fin 1))
      = x (ix3 b s ⟨min (i (ix3 b s (0 : Fin 1))).toNat 9487, by omega⟩) := by
  have hw : ∀ k : SQ.Idx, (wrapIdx i k).toNat < 9488 := fun k => by
    obtain ⟨b', s', u, v, rfl⟩ : ∃ b' s' u v, k = ix4 b' s' u v := ⟨k 0, k 1, k 2, k 3, eq_ix4 k⟩
    obtain rfl : u = 0 := Subsingleton.elim _ _
    obtain rfl : v = 0 := Subsingleton.elim _ _
    rw [wrapIdx_apply i b' s' (h _)]; exact h _
  unfold takeAlong
  show Scalar.select (inBounds (wrapIdx i) (ix3 b s (0 : Fin 1))) (Host.gather takeDims x (wrapIdx i) (ix3 b s (0 : Fin 1))) _ = _
  rw [inBounds_apply _ hw, select_one, gather_read]
  refine congrArg x (funext fun a => ?_)
  match a with
  | ⟨0, _⟩ => rfl
  | ⟨1, _⟩ => rfl
  | ⟨2, _⟩ =>
    refine Fin.ext ?_
    show min (wrapIdx i (ix4 b s (0 : Fin 1) (0 : Fin 1))).toInt.toNat 9487 = min (i (ix3 b s (0 : Fin 1))).toNat 9487
    rw [wrapIdx_apply i b s (h _), StableHlo.Predicate.toInt_eq_toNat_of_lt (by have := h (ix3 b s (0 : Fin 1)); omega), Int.toNat_natCast]

/-- THE PICKED ENTRY: at position (b, t), for ids inside the axis, x at row b, step t + 1, column the id. -/
theorem picked_apply (x : FVec F SX .f32) (t : IVec ST 32) (hr : InRange t) (j : ST.Idx) :
    picked x t j = x (pickIdx t j) := by
  obtain ⟨b, s, rfl⟩ : ∃ b s, j = ix2 b s := ⟨j 0, j 1, eq_ix2 j⟩
  have hcol : broadcastInDim SC ![0, 1] hbTC t (ix3 b s (0 : Fin 1)) = t (ix2 b s) :=
    broadcastInDim_apply _ hbTC t _ (ix2 b s) fun a => by
      match a with
      | ⟨0, _⟩ => rfl
      | ⟨1, _⟩ => rfl
  unfold picked
  rw [shapeCast_apply _ hcCT (ix2 b s) (ix3 b s (0 : Fin 1)) (by
    rw [Shape.rowMajor_val_three, Shape.rowMajor_val_two]
    show (b.val * 17 + s.val) * 1 + 0 = b.val * 17 + s.val
    omega)]
  rw [takeAlong_apply (extractStridedSlice SV ![0, 1, 0] x hslice) (broadcastInDim SC ![0, 1] hbTC t) (fun k => hr _) b s,
    slice3_axis1_apply 1 x hslice b s _ ⟨s.val + 1, by omega⟩ (by show s.val + 1 = 1 + s.val; omega)]
  refine congrArg x (funext fun a => ?_)
  match a with
  | ⟨0, _⟩ => rfl
  | ⟨1, _⟩ => rfl
  | ⟨2, _⟩ =>
    refine Fin.ext ?_
    show min (broadcastInDim SC ![0, 1] hbTC t (ix3 b s (0 : Fin 1))).toNat 9487 = min (t (ix2 b s)).toNat 9487
    rw [hcol]

end Read

/-- At the extended reals the mask is the specification's. -/
theorem maskG_ideal (t : IVec ST 32) : maskG (F := Ideal) t = maskOf t := rfl

/-- THE REFERENCE'S TERM IS THE LOSS, for ids inside the vocabulary axis. -/
theorem refOut_eq_loss (x : FVec Ideal SX .f32) (t : IVec ST 32) (hr : InRange t) : refOut (F := Ideal) x t = loss x t := by
  have e : Host.reduceAdd (mulf (picked x t) (maskOf t)) (constant (F := Ideal) S0 .f32 0x00000000#32) hred hS0
      = fun _ => total x t (maskOf t) := by
    funext j
    rw [hostReduceAdd_apply, Ideal.hostReduceAdd_total hred (fun b => b.elim0)]
    unfold total
    rw [constant_apply, Ideal.ofBits_zero_f32]
    congr 1
    refine Finset.sum_congr rfl fun p _ => ?_
    rw [mulf_apply, picked_apply x t hr p]
  unfold refOut refCore loss countOf
  rw [pad_nothing, maskG_ideal, e]

end GatherLoss

end
-- ==== Proof.RefValue.lean ====
/-
  The value of the reference's run: its result buffer ends at the loss of the two arguments, for token ids inside the
  vocabulary axis. The run ends with every buffer at the fold of the forty-six operations over the launch contents;
  at the result buffer that fold is the composed term of the two arguments (each operation's function applied to its
  operands' terms: a computation), and the composed term is the loss (the take along the vocabulary axis read at an
  index, the total sum opened as 0 + ∑).
-/
import proofs.«414372_j57990648430739_2_alg».proof.Proof.RefRun
import proofs.«414372_j57990648430739_2_alg».proof.Proof.RefTerm

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo

variable {F : FTy → Type} [FloatOps F]

attribute [local irreducible] Host.reduce Host.reduceWindow Host.reduceAdd Host.gather pad in
set_option maxRecDepth 8192 in
set_option maxHeartbeats 1000000 in
/-- The fold at the result buffer is the composed term. First the fold is read: each operation's result at its own
    buffer is its function of its operands' contents, at any other buffer what was there (the buffers told apart as
    references), every shared intermediate visited once. What is left differs from the composed term only by the
    typed references' casts, the identity at these literal references, and by the names of the shape facts: a
    computation. The reductions, the window sum, the gather and the pad are kept folded meanwhile: the equation never
    looks inside them. -/
theorem out_eq (V : Valuation τ sig (Elt F)) :
    after ops V (main_v16 : DevRef τ sig)
      = GatherLoss.refOut (V (main_arg0 : DevRef τ sig)) (V (main_arg1 : DevRef τ sig)) := by
  after_results_simp
  rfl

/-- At the compiled mesh, at the extended reals, from any memory with zero counters whose token ids lie inside the
    vocabulary axis: every weakly fair execution of @main terminates with the result buffer at the loss of the two
    arguments and the arguments unchanged. -/
theorem run (m : (ℓ : Loc nD τ sig) → Buf (Elt Ideal) ℓ) (ρ : Dev nD → PrngReg)
    (hr : ∀ c : Dev nD, GatherLoss.InRange (m ((c.tc : Thread nD τ).loc main_arg1))) :
    θ_run (defs (F := Ideal)) (onTc (τ := τ) (main (F := Ideal))) ⟨m, fun _ => 0, ρ⟩ fun r => ∀ c : Dev nD,
      r.2.mem ((c.tc : Thread nD τ).loc main_v16)
          = GatherLoss.loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c main_v16).trans (out_eq _)).trans (GatherLoss.refOut_eq_loss _ _ (hr c)),
        (h c main_arg0).trans (arg0_eq _), (h c main_arg1).trans (arg1_eq _)⟩)
    (run_main m ρ)

end Cert.ReferenceIdeal.RefValue

end
-- ==== Proof.KPiece.lean ====
/-
  What the body leaves in the one-entry output block, case by case: at the first grid point the block is reset to
  zero and the point's masked block sum is added to that zero; at every later point the sum is added to what the
  point before left. Both are the second store's payload read at the contents its loads found.
-/
import proofs.«414372_j57990648430739_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz11 : (![0, 0] : Fin 2 → Nat) = fun _ => 0 := funext fun a => by fin_cases a <;> rfl
theorem hz817 : (![0, 0] : Fin 2 → Nat) = fun _ => 0 := hz11
theorem hz3 : (![0, 0, 0] : Fin 3 → Nat) = fun _ => 0 := funext fun a => by fin_cases a <;> rfl

/-- A later point: the accumulator found, plus the block sum. -/
theorem out_B (c : Dev nD) (i : grid0.Coords) (a1 : Memref sig .tc .vmem S8x18x9488 .f32) (h1 : a1.IsWhole)
    (a2 : Memref sig .tc .vmem S8x17 .i32) (h2 : a2.IsWhole) (a3 : Memref sig .tc .vmem S8x17 .f32) (h3 : a3.IsWhole)
    (a4 : Memref sig .tc .vmem S1x1 .f32) (h4 : a4.IsWhole) (hc : ¬cond0_0 i)
    (x0 : Vec F S8x18x9488 .f32) (x1 : Vec F S8x17 .i32) (x2 : Vec F S8x17 .f32) (xo : Vec F S1x1 .f32) :
    out0_B_3 c i a1 h1 a2 h2 a3 h3 a4 h4 hc x0 x1 x2 xo = k0_pay2 x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz11]
  simp only [View.readAt_eq_ld, h1.read_unread, h2.read_unread, h3.read_unread, h4.read_unread,
    View.ld_unit_zero (S := S1x1) hz11, View.ld_unit_zero (S := S8x17) hz817, View.ld_unit_zero (S := S8x18x9488) hz3]

/-- The first point: the zero block, plus the block sum. -/
theorem out_A (c : Dev nD) (i : grid0.Coords) (a1 : Memref sig .tc .vmem S8x18x9488 .f32) (h1 : a1.IsWhole)
    (a2 : Memref sig .tc .vmem S8x17 .i32) (h2 : a2.IsWhole) (a3 : Memref sig .tc .vmem S8x17 .f32) (h3 : a3.IsWhole)
    (a4 : Memref sig .tc .vmem S1x1 .f32) (h4 : a4.IsWhole) (hc : cond0_0 i)
    (x0 : Vec F S8x18x9488 .f32) (x1 : Vec F S8x17 .i32) (x2 : Vec F S8x17 .f32) :
    out0_A_3 c i a1 h1 a2 h2 a3 h3 a4 h4 hc x0 x1 x2 = k0_pay2 x0 x1 x2 (k0_pay1 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz11, View.readCov_unit_zero (S := S1x1) _ hz11]
  simp only [View.readAt_eq_ld, h1.read_unread, h2.read_unread, h3.read_unread,
    View.ld_unit_zero (S := S8x17) hz817, View.ld_unit_zero (S := S8x18x9488) hz3]

end Cert.KernelIdeal.KValue

end
-- ==== Proof.KPayload.lean ====
/-
  The accumulating store's value at the one index of its block, over the extended reals: what was there, plus the
  sum over the block's 8 × 17 positions of (the sum over the vocabulary of x · [column = token]) · mask.
-/
import proofs.«414372_j57990648430739_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx

namespace Cert.KernelIdeal.KValue

open Cert.KernelIdeal Cert.KernelIdeal.Gen

/-- The weight column k gets against a token word: 1 when the word is k, else 0 (as the body computes it: the
    comparison widened to a word and converted). -/
def hot (k : Fin 9488) (w : BitVec 32) : EReal :=
  FloatOps.sitofp (F := Ideal) .f32 ((IntOp.cmpi .eq (BitVec.ofNat 32 k.val) w).setWidth 32)

/-- Row b, step t + 1, column k of a block of x. -/
abbrev xAt (y : S8x17.Idx) (k : Fin 9488) : S8x18x9488.Idx :=
  ix3 (n0 := 8) (n1 := 18) (n2 := 9488) ⟨(y 0).val, (y 0).isLt⟩
    ⟨(y 1).val + 1, by have : (y 1).val < 17 := (y 1).isLt; omega⟩ k

/-- The vocabulary sum at block position y: over columns k, x at (row, step + 1, k) times the weight of k. -/
theorem inner_apply (x0 : FVec Ideal S8x18x9488 .f32) (x1 : IVec S8x17 32)
    (hφ : FKind.Formats .f32) (hacc : (0x00000000#32 : BitVec 32) = FKind.add.neutral .f32 hφ) (y : S8x17.Idx) :
    multiReduction .add [2] S8x17
      (mulf (extractStridedSlice S8x17x9488 ![0, 1, 0] x0 slices_S8x18x9488_o0_1_0_S8x17x9488)
        (sitofp .f32 (extui 32 (cmpi .eq (iota .tc S8x17x9488 32 [2] iota_S8x17x9488_d2_w32)
          (broadcastTo S8x17x9488 (shapeCast S8x17x1 (shapeCast S8x17 x1 shapeCasts_S8x17_S8x17) shapeCasts_S8x17_S8x17x1)
            broadcasts_S8x17x1_S8x17x9488)) natLt_1_32)))
      0x00000000#32 reduces_S8x17x9488_S8x17 hφ hacc y
    = ∑ k : Fin 9488, x0 (xAt y k) * hot k (x1 y) := by
  refine (Ideal.multiReduction_add_single _ _ reduces_S8x17x9488_S8x17 hφ hacc y).trans ?_
  refine Finset.sum_congr rfl fun k _ => ?_
  have hb : broadcastTo S8x17x9488 (shapeCast S8x17x1 (shapeCast S8x17 x1 shapeCasts_S8x17_S8x17) shapeCasts_S8x17_S8x17x1)
      broadcasts_S8x17x1_S8x17x9488 (reduces_S8x17x9488_S8x17.lift y k) = x1 y := by
    rw [shapeCast_self]
    refine (broadcastTo_apply _ broadcasts_S8x17x1_S8x17x9488 _
      (ix3 (n0 := 8) (n1 := 17) (n2 := 1) ⟨(y 0).val, (y 0).isLt⟩ ⟨(y 1).val, (y 1).isLt⟩ (0 : Fin 1)) (fun a => by
        match a with
        | ⟨0, _⟩ => rfl
        | ⟨1, _⟩ => rfl
        | ⟨2, _⟩ => rfl)).trans ?_
    refine (shapeCast_apply x1 shapeCasts_S8x17_S8x17x1 _ y ?_)
    rw [Shape.rowMajor_val_three, Shape.rowMajor_val_two]
    show (y 0).val * 17 + (y 1).val = ((y 0).val * 17 + (y 1).val) * 1 + 0
    omega
  have hi : iota .tc S8x17x9488 32 [2] iota_S8x17x9488_d2_w32 (reduces_S8x17x9488_S8x17.lift y k) = BitVec.ofNat 32 k.val := by
    show BitVec.ofNat 32 (0 * _ + k.val) = _
    rw [Nat.zero_mul, Nat.zero_add]
  have hx : extractStridedSlice S8x17x9488 ![0, 1, 0] x0 slices_S8x18x9488_o0_1_0_S8x17x9488 (reduces_S8x17x9488_S8x17.lift y k)
      = x0 (xAt y k) :=
    extractStridedSlice_apply _ x0 _ _ (xAt y k) (fun a => by
      match a with
      | ⟨0, _⟩ => exact (Nat.zero_add _).symm
      | ⟨1, _⟩ => exact Nat.add_comm _ _
      | ⟨2, _⟩ => exact (Nat.zero_add _).symm)
  show extractStridedSlice S8x17x9488 ![0, 1, 0] x0 slices_S8x18x9488_o0_1_0_S8x17x9488 (reduces_S8x17x9488_S8x17.lift y k)
      * FloatOps.sitofp (F := Ideal) .f32 ((IntOp.cmpi .eq
          (iota .tc S8x17x9488 32 [2] iota_S8x17x9488_d2_w32 (reduces_S8x17x9488_S8x17.lift y k))
          (broadcastTo S8x17x9488 (shapeCast S8x17x1 (shapeCast S8x17 x1 shapeCasts_S8x17_S8x17) shapeCasts_S8x17_S8x17x1)
            broadcasts_S8x17x1_S8x17x9488 (reduces_S8x17x9488_S8x17.lift y k))).setWidth 32) = _
  rw [hx, hi, hb]
  rfl

/-- The block sum: the [8,17] products laid out as [1,8,17], summed over both axes, read at its one entry. -/
theorem outer_apply (v : FVec Ideal S8x17 .f32)
    (hφ : FKind.Formats .f32) (hacc : (0x00000000#32 : BitVec 32) = FKind.add.neutral .f32 hφ) :
    extractAt ![0, 0, 0] (shapeCast S1x1x1 (multiReduction .add [1, 2] S1 (shapeCast S1x8x17 v shapeCasts_S8x17_S1x8x17)
      0x00000000#32 reduces_S1x8x17_S1 hφ hacc) shapeCasts_S1_S1x1x1) inpos_S1x1x1_p0_0_0 = ∑ y : S8x17.Idx, v y := by
  unfold extractAt
  show multiReduction .add [1, 2] S1 (shapeCast S1x8x17 v shapeCasts_S8x17_S1x8x17) 0x00000000#32 reduces_S1x8x17_S1 hφ hacc _ = _
  refine (Ideal.multiReduction_add_total _ _ reduces_S1x8x17_S1 (fun b => by fin_cases b; rfl) hφ hacc _).trans ?_
  exact Equiv.sum_comp (Shape.reshapeEquiv shapeCasts_S8x17_S1x8x17) v

theorem pay2_apply (x0 : Vec Ideal S8x18x9488 .f32) (x1 : Vec Ideal S8x17 .i32) (x2 : Vec Ideal S8x17 .f32)
    (xo : Vec Ideal S1x1 .f32) (j : S1x1.Idx) :
    k0_pay2 (F := Ideal) x0 x1 x2 xo j
      = xo j + ∑ y : S8x17.Idx, (∑ k : Fin 9488, x0 (xAt y k) * hot k (x1 y)) * x2 y := by
  unfold k0_pay2
  dsimp only
  rw [addf_apply, shapeCast_self, broadcast_apply]
  congr 1
  refine (outer_apply _ _ _).trans ?_
  refine Finset.sum_congr rfl fun y _ => ?_
  refine congrArg₂ (· * ·) (inner_apply x0 x1 _ _ y) ?_
  exact congrFun (shapeCast_self x2 _) y

/-- The reset block is zero. -/
theorem pay1_apply (j : S1x1.Idx) : k0_pay1 (F := Ideal) j = 0 := by
  unfold k0_pay1
  rw [broadcast_apply]
  exact Ideal.ofBits_zero_f32

end Cert.KernelIdeal.KValue

end
-- ==== Proof.KBlocks.lean ====
/-
  What the three input windows hold at grid point t: rows 8t .. 8t + 7 of the log-probabilities, of the token ids and
  of the mask, each read off its whole array as the region finds it.
-/
import proofs.«414372_j57990648430739_2_alg».proof.Proof.Gen.KernelIdeal.Frame
import Idealize.ShloMosaic.Lib.Pipeline.Value

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ)

/-- The blocks at a point, and the arrays they are cut from, at their literal types. -/
abbrev xblk (c : Dev nD) (t : Fin cfg0.N) : Vec F S8x18x9488 .f32 := iblk m c 0 t
abbrev tblk (c : Dev nD) (t : Fin cfg0.N) : Vec F S8x17 .i32 := iblk m c 1 t
abbrev mblk (c : Dev nD) (t : Fin cfg0.N) : Vec F S8x17 .f32 := iblk m c 2 t
abbrev xarr (c : Dev nD) : Vec F S256x18x9488 .f32 := V m c main_arg0
abbrev tarr (c : Dev nD) : Vec F S256x17 .i32 := V m c main_v0
abbrev marr (c : Dev nD) : Vec F S256x17 .f32 := V m c main_v7

/-- Every window's block index at point t is (t, 0, …): decided once over the grid. -/
theorem idx_facts : ∀ t : Fin cfg0.N, win0_0.index t 0 = t.val ∧ win0_0.index t 1 = 0 ∧ win0_0.index t 2 = 0
    ∧ win0_1.index t 0 = t.val ∧ win0_1.index t 1 = 0 ∧ win0_2.index t 0 = t.val ∧ win0_2.index t 1 = 0 :=
  (by decide +kernel : ∀ t : Fin grid0.N, win0_0.index t 0 = t.val ∧ win0_0.index t 1 = 0 ∧ win0_0.index t 2 = 0
    ∧ win0_1.index t 0 = t.val ∧ win0_1.index t 1 = 0 ∧ win0_2.index t 0 = t.val ∧ win0_2.index t 1 = 0)

theorem xblk_apply (c : Dev nD) (t : Fin cfg0.N) (y : S8x18x9488.Idx) (i : S256x18x9488.Idx)
    (h0 : (i 0).val = 8 * t.val + (y 0).val) (h1 : (i 1).val = (y 1).val) (h2 : (i 2).val = (y 2).val) :
    xblk m c t y = xarr m c i := by
  show iblk m c 0 t y = _
  unfold iblk
  rw [View.read_apply]
  show V m c main_arg0 _ = V m c main_arg0 i
  congr 1
  funext a
  apply Fin.ext
  obtain ⟨e0, e1, e2, -⟩ := idx_facts t
  match a with
  | ⟨0, _⟩ => show win0_0.index t 0 * 8 + 1 * (y 0).val = (i 0).val; rw [e0, h0]; omega
  | ⟨1, _⟩ => show win0_0.index t 1 * 18 + 1 * (y 1).val = (i 1).val; rw [e1, h1]; omega
  | ⟨2, _⟩ => show win0_0.index t 2 * 9488 + 1 * (y 2).val = (i 2).val; rw [e2, h2]; omega

theorem tblk_apply (c : Dev nD) (t : Fin cfg0.N) (y : S8x17.Idx) (i : S256x17.Idx)
    (h0 : (i 0).val = 8 * t.val + (y 0).val) (h1 : (i 1).val = (y 1).val) :
    tblk m c t y = tarr m c i := by
  show iblk m c 1 t y = _
  unfold iblk
  rw [View.read_apply]
  show V m c main_v0 _ = V m c main_v0 i
  congr 1
  funext a
  apply Fin.ext
  obtain ⟨-, -, -, e0, e1, -⟩ := idx_facts t
  match a with
  | ⟨0, _⟩ => show win0_1.index t 0 * 8 + 1 * (y 0).val = (i 0).val; rw [e0, h0]; omega
  | ⟨1, _⟩ => show win0_1.index t 1 * 17 + 1 * (y 1).val = (i 1).val; rw [e1, h1]; omega

theorem mblk_apply (c : Dev nD) (t : Fin cfg0.N) (y : S8x17.Idx) (i : S256x17.Idx)
    (h0 : (i 0).val = 8 * t.val + (y 0).val) (h1 : (i 1).val = (y 1).val) :
    mblk m c t y = marr m c i := by
  show iblk m c 2 t y = _
  unfold iblk
  rw [View.read_apply]
  show V m c main_v7 _ = V m c main_v7 i
  congr 1
  funext a
  apply Fin.ext
  obtain ⟨-, -, -, -, -, e0, e1⟩ := idx_facts t
  match a with
  | ⟨0, _⟩ => show win0_2.index t 0 * 8 + 1 * (y 0).val = (i 0).val; rw [e0, h0]; omega
  | ⟨1, _⟩ => show win0_2.index t 1 * 17 + 1 * (y 1).val = (i 1).val; rw [e1, h1]; omega

end Cert.KernelIdeal.KValue

end
-- ==== Proof.KHot.lean ====
/-
  The one-hot weight, decoded. The body compares each column number k of the vocabulary axis with the token word,
  widens the one-bit answer to a word and converts it: over the extended reals that is 1 where the token is k and 0
  elsewhere. So a sum over the vocabulary of g k times the weight of k is g at the token, provided the token is a
  column at all; the other terms are g k · 0, which is 0 even where g k is infinite.
-/
import proofs.«414372_j57990648430739_2_alg».proof.Proof.KPayload
import Idealize.ShloMosaic.Lib.StableHlo.Predicate
import Mathlib.Algebra.BigOperators.Group.Finset.Basic
import Mathlib.Data.EReal.Basic

noncomputable section

open scoped BigOperators

namespace Cert.KernelIdeal.KValue

open Idealize.ShloMosaic

/-- Column k, as a word, is the token word exactly when the word's value is k (k is far below 2³²). -/
theorem ofNat_eq_iff (k : Fin 9488) (w : BitVec 32) : BitVec.ofNat 32 k.val = w ↔ w.toNat = k.val := by
  have hk : k.val < 9488 := k.isLt
  constructor
  · intro h
    rw [← h, BitVec.toNat_ofNat]
    omega
  · intro h
    apply BitVec.eq_of_toNat_eq
    rw [BitVec.toNat_ofNat, h]
    omega

/-- The weight of column k against a token word: 1 when the word's value is k, else 0. -/
theorem hot_eq (k : Fin 9488) (w : BitVec 32) : hot k w = if w.toNat = k.val then 1 else 0 := by
  -- over the extended reals the conversion of a word is its signed value
  show ((((IntOp.cmpi .eq (BitVec.ofNat 32 k.val) w).setWidth 32).toInt : ℝ) : EReal) = _
  by_cases h : w.toNat = k.val
  · -- the comparison is the bit 1; widened to 32 bits its signed value is 1
    rw [if_pos h, StableHlo.Predicate.cmpi_eq_iff.2 ((ofNat_eq_iff k w).2 h),
      show ((1#1 : BitVec 1).setWidth 32).toInt = 1 from by decide, Int.cast_one, EReal.coe_one]
  · -- the comparison is not 1, and a one-bit word that is not 1 is 0; widened, its signed value is 0
    have hne : IntOp.cmpi .eq (BitVec.ofNat 32 k.val) w ≠ 1#1 := fun e =>
      h ((ofNat_eq_iff k w).1 (StableHlo.Predicate.cmpi_eq_iff.1 e))
    rw [if_neg h, (BitVec.eq_zero_or_eq_one _).resolve_right hne,
      show ((0#1 : BitVec 1).setWidth 32).toInt = 0 from by decide, Int.cast_zero, EReal.coe_zero]

/-- Against a token word in range, the weights pick out one column: the sum over the vocabulary of g k times the weight
    of k is g at the token. (Every other term is g k · 0 = 0, also where g k is infinite.) -/
theorem sum_hot (g : Fin 9488 → EReal) (w : BitVec 32) (hw : w.toNat < 9488) :
    ∑ k : Fin 9488, g k * hot k w = g ⟨w.toNat, hw⟩ := by
  rw [Finset.sum_eq_single (⟨w.toNat, hw⟩ : Fin 9488)]
  · rw [hot_eq, if_pos (show w.toNat = (⟨w.toNat, hw⟩ : Fin 9488).val from rfl), mul_one]
  · intro k _ hk
    rw [hot_eq, if_neg (fun e : w.toNat = k.val => hk (Fin.ext e.symm)), mul_zero]
  · intro h
    exact absurd (Finset.mem_univ _) h

end Cert.KernelIdeal.KValue

end
-- ==== Proof.SumBlocks.lean ====
/-
  One sum over [256, 17], or thirty-two sums over [8, 17] added one after another.

  The rows 0 … 255 are the 32 groups of 8 consecutive rows: row r is row r % 8 of group r / 8, and row a of group i is row
  8 i + a. So a position of the [256, 17] array is a pair (group i, position y of the [8, 17] block), one to one, and
  a sum over all positions is the sum over the groups of the sum over each block. Adding the blocks' sums in the order
  i = 0, 1, …, 31, starting from zero, gives the same, because addition in the extended reals is associative and
  commutative with zero as its unit (nothing is subtracted, so no infinity is ever met with its opposite).
-/
import proofs.«414372_j57990648430739_2_alg».proof.Proof.Spec
import Idealize.ShloMosaic.Lib.ValueIdx
import Mathlib.Algebra.BigOperators.Group.Finset.Defs
import Mathlib.Algebra.BigOperators.Group.Finset.Basic
import Mathlib.Data.Fintype.BigOperators
import Mathlib.Data.EReal.Basic

noncomputable section

open scoped BigOperators

namespace GatherLoss

open Idealize.ShloMosaic Idealize.ShloMosaic.ValueIdx

/-- One block: 8 rows of 17 positions. -/
abbrev SB : Shape := ⟨2, ![8, 17]⟩

/-- Position y of block i, as a position of the whole array: row 8 i + y₀, column y₁. -/
def rowOf (i : Fin 32) (y : SB.Idx) : ST.Idx := fun a =>
  match a with
  | ⟨0, _⟩ => ⟨8 * i.val + (y 0).val, by
      have h0 : (y 0).val < 8 := (y 0).isLt
      have hi : i.val < 32 := i.isLt
      show _ < 256; omega⟩
  | ⟨1, _⟩ => ⟨(y 1).val, by have h1 : (y 1).val < 17 := (y 1).isLt; show _ < 17; omega⟩

theorem rowOf_val0 (i : Fin 32) (y : SB.Idx) : (rowOf i y 0).val = 8 * i.val + (y 0).val := rfl
theorem rowOf_val1 (i : Fin 32) (y : SB.Idx) : (rowOf i y 1).val = (y 1).val := rfl

/-- The running sum g 0, g 0 + g 1, …, started from zero. -/
def runSum (g : ℕ → EReal) : ℕ → EReal
  | 0 => 0 + g 0
  | n + 1 => runSum g n + g (n + 1)

/-- The running sum after step n is zero plus the sum of the first n + 1 terms. -/
theorem runSum_eq (g : ℕ → EReal) (n : ℕ) : runSum g n = 0 + ∑ i ∈ Finset.range (n + 1), g i := by
  induction n with
  | zero => rw [runSum, Finset.sum_range_one]
  | succ n ih => rw [runSum, ih, Finset.sum_range_succ g (n + 1), add_assoc]

/-- The sum of f over block i (zero past the last block). -/
def blockSum (f : ST.Idx → EReal) (i : ℕ) : EReal := if h : i < 32 then ∑ y : SB.Idx, f (rowOf ⟨i, h⟩ y) else 0

/-- A position of the array is a block and a position in it: row r is row r % 8 of block r / 8. -/
def blockEquiv : Fin 32 × SB.Idx ≃ ST.Idx where
  toFun p := rowOf p.1 p.2
  invFun j :=
    (⟨(j 0).val / 8, by have h : (j 0).val < 256 := (j 0).isLt; omega⟩,
     ix2 ⟨(j 0).val % 8, Nat.mod_lt _ (by decide)⟩ ⟨(j 1).val, (j 1).isLt⟩)
  left_inv p := by
    obtain ⟨i, y⟩ := p
    have h0 : (y 0).val < 8 := (y 0).isLt
    refine Prod.ext (Fin.ext ?_) (funext fun a => ?_)
    · show (8 * i.val + (y 0).val) / 8 = i.val
      omega
    · match a with
      | ⟨0, _⟩ => exact Fin.ext (show (8 * i.val + (y 0).val) % 8 = (y 0).val by omega)
      | ⟨1, _⟩ => rfl
  right_inv j := by
    funext a
    match a with
    | ⟨0, _⟩ => exact Fin.ext (show 8 * ((j 0).val / 8) + (j 0).val % 8 = (j 0).val by omega)
    | ⟨1, _⟩ => rfl

/-- The sum over the whole array is the sum over the blocks of each block's sum. -/
theorem sum_blocks (f : ST.Idx → EReal) : ∑ j : ST.Idx, f j = ∑ i : Fin 32, ∑ y : SB.Idx, f (rowOf i y) := by
  rw [← Equiv.sum_comp blockEquiv f, Fintype.sum_prod_type]
  rfl

/-- THE TWO ORDERS OF SUMMATION AGREE: all positions at once, or block after block from zero. -/
theorem total_eq_runSum (f : ST.Idx → EReal) : 0 + ∑ j : ST.Idx, f j = runSum (blockSum f) 31 := by
  rw [runSum_eq, sum_blocks, ← Fin.sum_univ_eq_sum_range (blockSum f) 32]
  -- term by term: block i's sum, i below 32
  refine congrArg (fun s => 0 + s) (Finset.sum_congr rfl fun i _ => ?_)
  rw [blockSum, dif_pos i.isLt]

end GatherLoss

end
-- ==== Proof.KChain.lean ====
/-
  The accumulator after grid point n is the running sum of the first n + 1 block sums, and each block sum is the sum
  over rows 8t .. 8t + 7 of x[b, s + 1, token[b, s]] · mask[b, s]: a one-hot weighted sum over the vocabulary picks the
  token's column when the token is a column.
-/
import proofs.«414372_j57990648430739_2_alg».proof.Proof.KPiece
import proofs.«414372_j57990648430739_2_alg».proof.Proof.KPayload
import proofs.«414372_j57990648430739_2_alg».proof.Proof.KBlocks
import proofs.«414372_j57990648430739_2_alg».proof.Proof.KHot
import proofs.«414372_j57990648430739_2_alg».proof.Proof.Spec
import proofs.«414372_j57990648430739_2_alg».proof.Proof.SumBlocks

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ)

/-- Position (b, s)'s contribution: the picked log-probability times the mask there. -/
def term (c : Dev nD) (j : GatherLoss.ST.Idx) : EReal :=
  xarr m c (GatherLoss.pickIdx (tarr m c) j) * marr m c j

/-- Column k of the row and step that position j reads. -/
abbrev colAt (j : GatherLoss.ST.Idx) (k : Fin 9488) : S256x18x9488.Idx :=
  ix3 (n0 := 256) (n1 := 18) (n2 := 9488) ⟨(j 0).val, (j 0).isLt⟩
    ⟨(j 1).val + 1, by have : (j 1).val < 17 := (j 1).isLt; omega⟩ k

theorem colAt_pick (tgt : IVec GatherLoss.ST 32) (j : GatherLoss.ST.Idx) (hw : (tgt j).toNat < 9488) :
    colAt j ⟨(tgt j).toNat, hw⟩ = GatherLoss.pickIdx tgt j := by
  funext a
  apply Fin.ext
  match a with
  | ⟨0, _⟩ => rfl
  | ⟨1, _⟩ => rfl
  | ⟨2, _⟩ => show (tgt j).toNat = min (tgt j).toNat 9487; omega

/-- One block's sum, as the kernel forms it, is the sum of the contributions of its rows. -/
theorem block_eq (c : Dev nD) (hr : GatherLoss.InRange (tarr m c)) (t : Fin cfg0.N) :
    ∑ y : S8x17.Idx, (∑ k : Fin 9488, xblk m c t (xAt y k) * hot k (tblk m c t y)) * mblk m c t y
      = GatherLoss.blockSum (term m c) t.val := by
  have ht : t.val < 32 := lt_of_lt_of_eq t.isLt (show cfg0.N = 32 from N_0)
  unfold GatherLoss.blockSum
  rw [dif_pos ht]
  refine Finset.sum_congr rfl fun y _ => ?_
  have e1 : tblk m c t y = tarr m c (GatherLoss.rowOf ⟨t.val, ht⟩ y) := tblk_apply m c t y _ rfl rfl
  have e2 : mblk m c t y = marr m c (GatherLoss.rowOf ⟨t.val, ht⟩ y) := mblk_apply m c t y _ rfl rfl
  have e3 : ∀ k : Fin 9488, xblk m c t (xAt y k) = xarr m c (colAt (GatherLoss.rowOf ⟨t.val, ht⟩ y) k) :=
    fun k => xblk_apply m c t (xAt y k) _ rfl rfl rfl
  rw [e1, e2]
  simp only [e3]
  rw [sum_hot (fun k => xarr m c (colAt (GatherLoss.rowOf ⟨t.val, ht⟩ y) k)) _ (hr _), colAt_pick]
  rfl

/-- The accumulator after point n: zero plus the block sums so far, in point order. -/
theorem outsAt_eq (c : Dev nD) (hr : GatherLoss.InRange (tarr m c)) :
    ∀ (n : ℕ) (h : n < cfg0.N) (j : S1x1.Idx),
      outsAt0 m c n h j = GatherLoss.runSum (GatherLoss.blockSum (term m c)) n
  | 0, h, j => by
    rw [outsAt0_A m c ⟨0, h⟩ rfl, out_A, pay2_apply, pay1_apply]
    exact congrArg (0 + ·) (block_eq m c hr ⟨0, h⟩)
  | n + 1, h, j => by
    have hN : cfg0.N = 32 := N_0
    have hB : ¬(⟨n + 1, h⟩ : Fin cfg0.N).val % 32 = 0 := by dsimp only; omega
    rw [outsAt0_B m c ⟨n + 1, h⟩ hB, out_B, pay2_apply]
    show outsAt0 m c n _ j + _ = GatherLoss.runSum _ n + _
    rw [outsAt_eq c hr n _ j]
    exact congrArg (_ + ·) (block_eq m c hr ⟨n + 1, h⟩)

end Cert.KernelIdeal.KValue

end
-- ==== Proof.KFinal.lean ====
/-
  After the last grid point the one-entry result array holds the accumulator that point left (it is the only
  write-back), and the host lines after the region turn it into the loss: reshape to a scalar, negate, divide by the
  mask's sum.
-/
import proofs.«414372_j57990648430739_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

/-- The last grid point. -/
abbrev tLast : Fin cfg0.N := ⟨31, by rw [show cfg0.N = 32 from N_0]; decide⟩

/-- What the last point leaves in the output block. -/
abbrev acc (c : Dev nD) : Buf (Elt F) ((c : Thread nD τ).loc main_v9) := outsAt0 m c 31 tLast.isLt

/-- The one write-back, at the last point, writes it: block (0, 0) of the [1,1] array is the array. -/
theorem flushed_eq (c : Dev nD) (t : Fin cfg0.N) (hf : (cfg0.win 3).flush t = true) :
    (dats m 0 c).flushed 3 t = ((cfg0.win 3).blk t).view.read (Elt F) (acc m c) := by
  have hN : cfg0.N = 32 := N_0
  have h3 : t.val = 31 := by have := (flush0_3 t).mp hf; have := t.isLt; omega
  obtain rfl : t = tLast := Fin.ext h3
  show (cfg0.win 3).cut (grid0.coords tLast) ((dats m 0 c).after 3 tLast) = _
  rw [after0_3]
  have hz' : (fun a => win0_3.index tLast a * main_v9.ty.shape.size a) = fun _ => 0 := funext fun a => by fin_cases a <;> decide
  exact (Memref.read_access_unit_zero (Elt F) main_v9 hz' (fun a => by rw [congrFun hz' a]; simp) (acc m c)).symm

/-- So the result array ends at that accumulator. -/
theorem final_o (c : Dev nD) : (dats m 0 c).arrAt 3 cfg0.N = acc m c :=
  (dats m 0 c).arrAt_eq_of_cover 3 (acc m c) (flushed_eq m c) fun i =>
    ⟨tLast, (flush0_3 tLast).mpr rfl, by
      show i ∈ ((View.whole main_v9).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The program's result: the host lines after the region, applied to the result array and to the mask's sum. -/
theorem tail_eq (c : Dev nD) :
    Pipeline.afterTail₀ cfgs (dats m) 0 (V0 m) [hostOps1] c main_v12
      = Host.divf (Host.negf (shapeCast S_ (acc m c) shapeCasts_S1x1_S_)) (V m c main_v8) := by
  unfold Pipeline.afterTail₀
  show StableHlo.after hostOps1 _ (Proc.devRef .tc main_v12) = _
  after_results
  have e9 : Pipeline.withArrays (cfgs 0).spec c (V0 m c) (fun w => (dats m 0 c).arrAt w (cfgs 0).N) (Proc.devRef .tc main_v9)
      = acc m c :=
    (Pipeline.withArrays_arr spec0 launch0.win.arr_inj c _ _ 3).trans (final_o m c)
  have e8 : Pipeline.withArrays (cfgs 0).spec c (V0 m c) (fun w => (dats m 0 c).arrAt w (cfgs 0).N) (Proc.devRef .tc main_v8)
      = V m c main_v8 :=
    Pipeline.withArrays_of_ne _ c (V0 m c) _ main_v8 (by exact (by decide : ∀ w, Pipeline.arrRef spec0 w ≠ main_v8))
  rw [e9, e8]
  rfl

end Cert.KernelIdeal.KValue

end
-- ==== Proof.KHost.lean ====
/-
  What the host lines before the region leave in the windows' arrays, as functions of the two arguments: the token
  ids unchanged (the pad adds nothing), the mask, and the mask's sum.
-/
import proofs.«414372_j57990648430739_2_alg».proof.Proof.Gen.KernelIdeal.Frame
import proofs.«414372_j57990648430739_2_alg».proof.Proof.KBlocks
import proofs.«414372_j57990648430739_2_alg».proof.Proof.Spec
import Idealize.ShloMosaic.Lib.StableHlo.Run
import Idealize.ShloMosaic.Lib.Tactic

noncomputable section

open Idealize.ShloMosaic Idealize.ShloMosaic.TcCoe Idealize.SL.Sem

namespace Cert.KernelIdeal.KValue

open Cert.KernelIdeal Cert.KernelIdeal.Gen

variable (m : (ℓ : Loc nD τ sig) → Buf (Elt Ideal) ℓ)

theorem xarr_eq (c : Dev nD) : xarr m c = m ((c.tc : Thread nD τ).loc main_arg0) := V_main_arg0 m c

theorem tarr_eq (c : Dev nD) : tarr m c = m ((c.tc : Thread nD τ).loc main_arg1) := by
  show V m c main_v0 = _
  dsimp only [V, V0]
  simp only [hostOps0, hostOps0_1, hostOps0_2, hostOps0_3, hostOps0_4, List.flatten_cons, List.flatten_nil, List.append_nil,
    List.cons_append, List.nil_append]
  after_results
  exact GatherLoss.pad_nothing _ _ GatherLoss.hpads GatherLoss.hS0

attribute [local irreducible] Host.reduceWindow Host.reduceAdd pad in
theorem marr_eq (c : Dev nD) : marr m c = GatherLoss.maskOf (m ((c.tc : Thread nD τ).loc main_arg1)) := by
  show V m c main_v7 = _
  dsimp only [V, V0]
  simp only [hostOps0, hostOps0_1, hostOps0_2, hostOps0_3, hostOps0_4, List.flatten_cons, List.flatten_nil, List.append_nil,
    List.cons_append, List.nil_append]
  after_results
  refine Eq.trans ?_ (congrArg GatherLoss.maskOf
    (GatherLoss.pad_nothing (m ((c.tc : Thread nD τ).loc main_arg1)) (constantI S_ 32 0#32) GatherLoss.hpads GatherLoss.hS0))
  rfl

attribute [local irreducible] Host.reduceWindow Host.reduceAdd pad in
theorem count_eq (c : Dev nD) : V m c main_v8 = GatherLoss.countOf (m ((c.tc : Thread nD τ).loc main_arg1)) := by
  dsimp only [V, V0]
  simp only [hostOps0, hostOps0_1, hostOps0_2, hostOps0_3, hostOps0_4, List.flatten_cons, List.flatten_nil, List.append_nil,
    List.cons_append, List.nil_append]
  after_results
  refine Eq.trans ?_ (congrArg GatherLoss.countOf
    (GatherLoss.pad_nothing (m ((c.tc : Thread nD τ).loc main_arg1)) (constantI S_ 32 0#32) GatherLoss.hpads GatherLoss.hS0))
  rfl

end Cert.KernelIdeal.KValue

end
-- ==== Proof.KValue.lean ====
/-
  The idealized kernel's run, read: its result is the loss of the two arguments, and the arguments end unchanged.
  The accumulator after the last point is the running sum of all 32 block sums, which over the extended reals is the
  sum over all 256 × 17 positions; the arrays it is formed from are the arguments, the mask and the mask's sum.
-/
import proofs.«414372_j57990648430739_2_alg».proof.Proof.KChain
import proofs.«414372_j57990648430739_2_alg».proof.Proof.KFinal
import proofs.«414372_j57990648430739_2_alg».proof.Proof.KHost
import proofs.«414372_j57990648430739_2_alg».proof.Proof.SumBlocks
import proofs.«414372_j57990648430739_2_alg».proof.Proof.Spec

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The sum of all contributions, from zero, over the arguments. -/
theorem total_eq (c : Dev nD) :
    (0 + ∑ j : GatherLoss.ST.Idx, term m c j)
      = GatherLoss.total (m ((c.tc : Thread nD τ).loc main_arg0)) (m ((c.tc : Thread nD τ).loc main_arg1))
          (GatherLoss.maskOf (m ((c.tc : Thread nD τ).loc main_arg1))) := by
  unfold GatherLoss.total term
  rw [xarr_eq, tarr_eq, marr_eq]

theorem result_eq (c : Dev nD) (hr : GatherLoss.InRange (m ((c.tc : Thread nD τ).loc main_arg1))) :
    Pipeline.afterTail₀ cfgs (dats m) 0 (V0 m) [hostOps1] c main_v12
      = GatherLoss.loss (m ((c.tc : Thread nD τ).loc main_arg0)) (m ((c.tc : Thread nD τ).loc main_arg1)) := by
  have hrt : GatherLoss.InRange (tarr m c) := by rw [tarr_eq]; exact hr
  rw [tail_eq, count_eq]
  unfold GatherLoss.loss
  refine congrArg (fun a => Host.divf (Host.negf a) _) (funext fun i => ?_)
  show outsAt0 m c 31 _ _ = _
  rw [outsAt_eq m c hrt 31 _ _, ← GatherLoss.total_eq_runSum, total_eq]

/-- Every weakly fair execution of the idealized kernel's program terminates with the loss in its result buffer. -/
theorem run (hr : ∀ c : Dev nD, GatherLoss.InRange (m ((c.tc : Thread nD τ).loc main_arg1))) :
    θ_run (defs (F := Ideal)) (onTc (τ := τ) (main (F := Ideal))) ⟨m, fun _ => 0, ρ⟩ fun r => ∀ c : Dev nD,
      r.2.mem ((c.tc : Thread nD τ).loc main_v12)
          = GatherLoss.loss (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c =>
    ⟨((h c).2 main_v12 (Pipeline.mem_restRefs_of main_v12 (by decide) (by decide))).trans (result_eq m c (hr c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.lean ====
/-
  The certificate of a masked gather loss. Inputs: log-probabilities x : [256, 18, 9488] and token ids
  tgt : [256, 17]. With M[b, t] = 1 while the inclusive count of zero tokens in row b up to t is at most one (else 0)
  and n the sum of M, both programs compute

      loss = -(∑ over (b, t) of x[b, t + 1, tgt[b, t]] · M[b, t]) / n.

  The kernel walks 32 blocks of 8 rows; in each it forms x · [column = token] over the vocabulary, sums the columns,
  multiplies by the mask block, sums the block and adds that to a one-entry accumulator, reset at the first block; the
  host lines after it negate and divide by n. The reference takes the entries along the vocabulary axis, multiplies by
  the mask and sums everything at once. Over the extended reals a one-hot weighted sum is the picked entry (0 · ±∞ = 0
  there), and sums may be regrouped freely, so the two agree whenever every token id is a column, 0 ≤ tgt < 9488,
  which the precondition states; outside that range the reference wraps or fills and the kernel's one-hot is empty.
  The mask and its sum are the same integer chain in both programs and are never opened.

  The frames of the two kernel programs are the generated ones; the reference is a straight line of host operations.
-/
import proofs.«414372_j57990648430739_2_alg».proof.Defs
import proofs.«414372_j57990648430739_2_alg».proof.Proof.Gen.Kernel
import proofs.«414372_j57990648430739_2_alg».proof.Proof.Gen.Kernel.Skeleton
import proofs.«414372_j57990648430739_2_alg».proof.Proof.Gen.Kernel.Launch
import proofs.«414372_j57990648430739_2_alg».proof.Proof.Gen.Kernel.Points
import proofs.«414372_j57990648430739_2_alg».proof.Proof.Gen.Kernel.Frame
import proofs.«414372_j57990648430739_2_alg».proof.Proof.Gen.KernelIdeal
import proofs.«414372_j57990648430739_2_alg».proof.Proof.Gen.KernelIdeal.Skeleton
import proofs.«414372_j57990648430739_2_alg».proof.Proof.Gen.KernelIdeal.Launch
import proofs.«414372_j57990648430739_2_alg».proof.Proof.Gen.KernelIdeal.Points
import proofs.«414372_j57990648430739_2_alg».proof.Proof.Gen.KernelIdeal.Frame
import proofs.«414372_j57990648430739_2_alg».proof.Proof.Gen.ReferenceIdeal
import proofs.«414372_j57990648430739_2_alg».proof.Proof.Gen.Pre_finite_inputs
import proofs.«414372_j57990648430739_2_alg».proof.Proof.Spec
import proofs.«414372_j57990648430739_2_alg».proof.Proof.PreRange
import proofs.«414372_j57990648430739_2_alg».proof.Proof.RefRun
import proofs.«414372_j57990648430739_2_alg».proof.Proof.RefValue
import proofs.«414372_j57990648430739_2_alg».proof.Proof.KValue
import Idealize.ShloMosaic.Adequacy
import Idealize.ShloMosaic.Init

noncomputable section

namespace Cert.Proof

open Idealize.ShloMosaic Idealize.SL.Sem

/-- The kernel as printed runs and leaves its arguments: the generated frame. -/
theorem frame_k : Cert.frame_Kernel := fun m ρ _ => Cert.Kernel.Gen.frame m ρ
/-- Its idealization likewise. -/
theorem frame_ki : Cert.frame_KernelIdeal := fun m ρ _ => Cert.KernelIdeal.Gen.frame m ρ
/-- The reference runs as one straight line of host operations, none of which writes an argument. -/
theorem frame_ri : Cert.frame_ReferenceIdeal := fun m ρ _ => Cert.ReferenceIdeal.RefRun.frame m ρ
/-- The ideal pass rewrote no operation. -/
theorem preserves : Cert.preserves_Kernel_KernelIdeal := trivial

/-- Over the extended reals both programs end with the loss of the argument arrays: the kernel's run and the
    reference's run each need only that the token ids are columns of the vocabulary, which the precondition says of
    the kernel's arguments, and so of the reference's, which agree with them. -/
theorem algebraic : Cert.algebraic_KernelIdeal_ReferenceIdeal := by
  intro m ρ m' ρ' hpre hagree
  have hrK : ∀ c : Dev Cert.KernelIdeal.nD, GatherLoss.InRange (m ((c.tc : Thread Cert.KernelIdeal.nD Cert.KernelIdeal.τ).loc Cert.KernelIdeal.main_arg1)) :=
    fun c => Cert.PreRange.inRange_of_pre _ _ (hpre c)
  have hrR : ∀ c : Dev Cert.ReferenceIdeal.nD, GatherLoss.InRange (m' ((c.tc : Thread Cert.ReferenceIdeal.nD Cert.ReferenceIdeal.τ).loc Cert.ReferenceIdeal.main_arg1)) := fun c => by
    rw [(hagree c).2]; exact hrK c
  refine ⟨fun c => GatherLoss.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.KValue.run m ρ hrK, ?_⟩
  refine (θ_run Cert.ReferenceIdeal.defs _ _).mono (fun _ h c => ⟨(h c).1.trans ?_, (h c).2⟩)
    (Cert.ReferenceIdeal.RefValue.run m' ρ' hrR)
  rw [(hagree c).1, (hagree c).2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
